-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S1024x12 : Shape := ⟨2, ![1024, 12]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024x12 : S_.BroadcastsInDim S1024x12 (![] : Fin 0 → Fin S1024x12.rank)
  reducesTo_S1024x12_S_d0_1 : S1024x12.ReducesTo [0, 1] S_

variable [Facts]

def fn {F : FTy → Type} [FloatOps F] (main_arg0 : FVec F S4096x1024 .f32) (main_arg1 : FVec F S1024x4096 .f32) (main_arg2 : FVec F S1024x12 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x12 .f32 := Host.absf main_arg2
  let main_cst_2 : FVec F S_ .f32 := constant S_ .f32 0x7F800000#32
  let main_v10 : FVec F S1024x12 .f32 := broadcastInDim S1024x12 ![] bcast_S_S1024x12 main_cst_2
  let main_v11 : IVec S1024x12 1 := cmpf .olt main_v9 main_v10
  let main_c_3 : IVec S_ 1 := constantI S_ 1 1#1
  let main_v12 : IVec S_ 1 := (fun x v => Host.reduce IntOp.andi x v reducesTo_S1024x12_S_d0_1 h_S_) main_v11 main_c_3
  let main_v13 : IVec S_ 1 := andi main_v8 main_v12
  main_v13
-- ==== Kernel.lean ====
abbrev S4096x1024 : Shape := ⟨2, ![4096, 1024]⟩
abbrev S1024x4096 : Shape := ⟨2, ![1024, 4096]⟩
abbrev S1024x12 : Shape := ⟨2, ![1024, 12]⟩
abbrev S_ : Shape := ⟨0, ![]⟩
abbrev S1024 : Shape := ⟨1, ![1024]⟩
abbrev S1x1024 : Shape := ⟨2, ![1, 1024]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x12, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S1024x12_S1024_d1 : S1024x12.ReducesTo [1] S1024
  h_S_ : 0 < S_.numel
  bcast_S_S1024 : S_.BroadcastsInDim S1024 (![] : Fin 0 → Fin S1024.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x4096.size a
  hwx0_2 : ∀ i : grid0.Coords, EltTy.bits .f32 = 32 ∨ (Rect.block (s := S1024x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S1024x12 : Shape := ⟨2, ![1024, 12]⟩
abbrev S_ : Shape := ⟨0, ![]⟩
abbrev S1024 : Shape := ⟨1, ![1024]⟩
abbrev S1x1024 : Shape := ⟨2, ![1, 1024]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x12, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S1024x12_S1024_d1 : S1024x12.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KernelBody.lean ====
/-
  One grid point of the kernel: the body loads a 512×1024 block of `x`, the one 1×1024 row of phases and a 1024×1024
  block of the weights, and stores the 512×1024 product. Read at an entry `(p, q)` of the block, on the extended reals,
  the stored value is

      ∑ₖ cos (x (p, k) · φ (0, k)) · w (k, q),      k < 1024:

  the row of phases is laid under every row of the block, the two narrowings to the 16-bit format are the identity,
  and a matrix product accumulated into zeros is the plain sum over the shared axis.
-/
import proofs.«107179_j8555574854205_1_alg».proof.Proof.Gen.KernelIdeal.Skeleton
import proofs.«107179_j8555574854205_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The product's dimension numbers, coordinate by coordinate -/

/-- The left operand is read at the entry's row … -/
theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and at the summation index along its columns; -/
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the summation index along its rows … -/
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and at the entry's column. -/
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The stored block at an entry -/

/-- The modulated coefficient at `(p, k)`: the block's entry times the phase of column `k`, under the cosine. -/
theorem coef_apply (x0 : Vec Ideal S512x1024 .f32) (x1 : Vec Ideal S1x1024 .f32) (p : Fin 512) (k : Fin 1024) :
    cos (F := Ideal) (φ := .f32) (mulf (φ := .f32) x0 (broadcastTo S512x1024 (shapeCast S1x1024 x1 shapeCasts_S1x1024_S1x1024) broadcasts_S1x1024_S512x1024)) (ix2 p k)
      = Ideal.cos (x0 (ix2 p k) * x1 (ix2 (0 : Fin 1) k)) := by
  show Ideal.cos (x0 (ix2 p k) * broadcastTo S512x1024 (shapeCast S1x1024 x1 shapeCasts_S1x1024_S1x1024) broadcasts_S1x1024_S512x1024 (ix2 p k)) = _
  rw [broadcastTo_1b_ab_apply, shapeCast_self]

/-- THE BODY'S STORE AT `(p, q)`: `∑ₖ cos (x (p, k) · φ (0, k)) · w (k, q)`. -/
theorem pay_apply (x0 : Vec Ideal S512x1024 .f32) (x1 : Vec Ideal S1x1024 .f32) (x2 : Vec Ideal S1024x1024 .f32)
    (p : Fin 512) (q : Fin 1024) :
    k0_pay1 (F := Ideal) x0 x1 x2 (ix2 p q)
      = ∑ k : Fin 1024, Ideal.cos (x0 (ix2 p k) * x1 (ix2 (0 : Fin 1) k)) * x2 (ix2 k q) := by
  unfold k0_pay1
  simp only [matmul]
  rw [Ideal.matmul_constant_zero_apply]
  refine (Cert.LibPlainDot.sum_plain dot_S512x1024_S1024x1024_S512x1024_1_0_0_1_n_n rfl rfl
    lhs_dot_0 lhs_dot_1 rhs_dot_0 rhs_dot_1 _ _ p q).trans ?_
  refine Finset.sum_congr rfl fun k _ => ?_
  rw [truncf_apply, truncf_apply, coef_apply]

end Cert.KernelIdeal.Body

end
-- ==== Proof.CosDot.lean ====
/-
  The function both programs compute, on the extended reals: each row of `x` is scaled entry by entry by a phase vector,
  the cosine is taken, and the result is multiplied into the weight matrix,

      out (b, n) = ∑ₖ cos (x (b, k) · φ k) · w (k, n),        b < 4096, k < 1024, n < 4096.

  The phase vector `φ` (the mean of each row of the 1024×12 phase table) is a parameter here: both programs form it by
  the same host operations, so the bridge never opens it.
-/
import Idealize.ShloMosaic.PureOps.Ideal
import Idealize.ShloMosaic.Lib.ValueIdx

noncomputable section

open scoped BigOperators

namespace Cert.CosDot

open Idealize.ShloMosaic Idealize.ShloMosaic.ValueIdx

/-- The cosine-modulated product at entry `i = (b, n)`: `∑ₖ cos (x (b, k) · φ k) · w (k, n)`. -/
def cosDot (x : (⟨2, ![4096, 1024]⟩ : Shape).Idx → EReal) (w : (⟨2, ![1024, 4096]⟩ : Shape).Idx → EReal)
    (φ : (⟨1, ![1024]⟩ : Shape).Idx → EReal) : (⟨2, ![4096, 4096]⟩ : Shape).Idx → EReal :=
  fun i => ∑ k : Fin 1024, Ideal.cos (x (ix2 (i 0) k) * φ (ix1 k)) * w (ix2 k (i 1))

/-- The same at explicit coordinates. -/
theorem cosDot_ix2 (x : (⟨2, ![4096, 1024]⟩ : Shape).Idx → EReal) (w : (⟨2, ![1024, 4096]⟩ : Shape).Idx → EReal)
    (φ : (⟨1, ![1024]⟩ : Shape).Idx → EReal) (b : Fin 4096) (n : Fin 4096) :
    cosDot x w φ (ix2 b n) = ∑ k : Fin 1024, Ideal.cos (x (ix2 b k) * φ (ix1 k)) * w (ix2 k n) := rfl

end Cert.CosDot

end
-- ==== Proof.KernelValue.lean ====
/-
  The kernel's result array on the extended reals. The grid has 8 × 4 points; point `(r, s)` reads rows
  `512·r … 512·r + 511` of `x`, the one row of phases, and columns `1024·s … 1024·s + 1023` of the weights, and writes the
  512 × 1024 block of the result at block row `r` and block column `s`. The row of phases the region finds is the phase
  vector (the row means of the phase table) viewed as one row, written by the host operations before the region. So every
  point writes its own block of

      out (b, n) = ∑ₖ cos (x (b, k) · φ k) · w (k, n),

  the 32 blocks tile the 4096 × 4096 result, and the array ends holding that function whole.
-/
import proofs.«107179_j8555574854205_1_alg».proof.Proof.Gen.KernelIdeal.Value
import proofs.«107179_j8555574854205_1_alg».proof.Proof.KernelBody
import proofs.«107179_j8555574854205_1_alg».proof.Proof.CosDot
import Idealize.ShloMosaic.Lib.StableHlo.Run

set_option maxRecDepth 16384

noncomputable section

open scoped BigOperators

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.CosDot

variable (m : (ℓ : Loc nD τ sig) → Buf (Elt Ideal) ℓ) (ρ : Dev nD → PrngReg)

/-! ## The arrays the region finds, at their literal shapes -/

/-- `x` as the region finds it … -/
abbrev xarr (c : Dev nD) : Vec Ideal S4096x1024 .f32 := V m c main_arg0
/-- … the weights … -/
abbrev warr (c : Dev nD) : Vec Ideal S1024x4096 .f32 := V m c main_arg1
/-- … and the one row of phases. -/
abbrev prow (c : Dev nD) : Vec Ideal S1x1024 .f32 := V m c main_v3

/-- No host operation writes `x` … -/
theorem xarr_eq (c : Dev nD) : xarr m c = m ((c : Thread nD τ).loc main_arg0) := V_main_arg0 m c
/-- … nor the weights: the region finds both as launched. -/
theorem warr_eq (c : Dev nD) : warr m c = m ((c : Thread nD τ).loc main_arg1) := V_main_arg1 m c

/-! ## The phases as the region finds them -/

/-- The phase vector: each row of the phase table summed from zero and divided by twelve. -/
def phase (x2 : (⟨S1024x12, .f32⟩ : BufTy).Contents (Elt Ideal)) : (⟨S1024, .f32⟩ : BufTy).Contents (Elt Ideal) :=
  Host.divf (Host.reduceAdd x2 (constant (F := Ideal) S_ .f32 0x00000000#32) reducesTo_S1024x12_S1024_d1 h_S_)
    (broadcastInDim S1024 ![] bcast_S_S1024 (constant (F := Ideal) S_ .f32 0x41400000#32))

/-- The second window's array at region entry is the phase vector viewed as a single row. -/
theorem V_phase_row (c : Dev nD) :
    (V m c main_v3 : S1x1024.Idx → EReal)
      = shapeCast S1x1024 (phase (m ((c : Thread nD τ).loc main_arg2))) shapeCasts_S1024_S1x1024 := by
  dsimp only [V, hostOps0]
  after_results
  rfl

/-- Entry `(0, k)` of that row is entry `k` of the phase vector. -/
theorem V_phase_row_apply (c : Dev nD) (k : Fin 1024) :
    (V m c main_v3 : S1x1024.Idx → EReal) (ix2 (0 : Fin 1) k) = phase (m ((c : Thread nD τ).loc main_arg2)) (ix1 k) := by
  rw [V_phase_row]
  exact shapeCast_a_1a_apply _ _ _ _

/-- The same, of the row at its literal shape. -/
theorem prow_apply (c : Dev nD) (k : Fin 1024) :
    prow m c (ix2 (0 : Fin 1) k) = phase (m ((c : Thread nD τ).loc main_arg2)) (ix1 k) := V_phase_row_apply m c k

/-! ## The index maps over the grid -/

theorem offset_zero : (![0, 0] : Fin 2 → Nat) = fun _ => 0 := funext fun a => by fin_cases a <;> rfl

/-- Decided over the 32 points: the block of `x` follows the result's block row and spans all columns; the row of
    phases stays put; the block of weights spans all rows and follows the result's block column; and the result's block
    row is below 8, its block column below 4. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block row and block column of the result is some point's. -/
theorem index_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-! ## What a point writes back -/

/-- POINT `t` WRITES BACK its block of the cosine-modulated product of the arrays the region finds. -/
theorem flushed_eq (c : Dev nD) (t : Fin cfg0.N) :
    (dats m 0 c).flushed 3 t = ((cfg0.win 3).blk t).view.read (Elt Ideal)
      (cosDot (xarr m c) (warr m c) (phase (m ((c : Thread nD τ).loc main_arg2)))) := by
  rw [Cert.KernelIdeal.Value.flushed3]
  unfold out0_3
  rw [View.canon_unit_zero offset_zero]
  simp only [View.ld_unit_zero (S := S512x1024) offset_zero, View.ld_unit_zero (S := S1x1024) offset_zero,
    View.ld_unit_zero (S := S1024x1024) offset_zero]
  obtain ⟨e00, e01, e10, e11, e20, e21, -, -⟩ := index_facts t
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (ix2 p q)
    = cosDot (xarr m c) (warr m c) (phase (m ((c : Thread nD τ).loc main_arg2)))
        (((cfg0.win 3).blk t).view.emb (ix2 p q))
  refine (Cert.KernelIdeal.Body.pay_apply (iblk m c 0 t) (iblk m c 1 t) (iblk m c 2 t) p q).trans ?_
  have hp : p.val < 512 := p.isLt
  have hq : q.val < 1024 := q.isLt
  have h7 : win0_3.index t (0 : Fin 2) ≤ 7 := (index_facts t).2.2.2.2.2.2.1
  have h3 : win0_3.index t (1 : Fin 2) ≤ 3 := (index_facts t).2.2.2.2.2.2.2
  have hout : ((cfg0.win 3).blk t).view.emb (ix2 p q)
      = ix2 (⟨win0_3.index t (0 : Fin 2) * 512 + p.val, by omega⟩ : Fin 4096) (⟨win0_3.index t (1 : Fin 2) * 1024 + q.val, by omega⟩ : Fin 4096) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  rw [hout, cosDot_ix2]
  refine Finset.sum_congr rfl fun k _ => ?_
  have hk : k.val < 1024 := k.isLt
  have hx : ((cfg0.win 0).blk t).view.emb (ix2 p k)
      = ix2 (⟨win0_3.index t (0 : Fin 2) * 512 + p.val, by omega⟩ : Fin 4096) k := by
    funext a; apply Fin.ext
    match a with
    | ⟨0, _⟩ => show win0_0.index t (0 : Fin 2) * 512 + 1 * p.val = win0_3.index t (0 : Fin 2) * 512 + p.val; omega
    | ⟨1, _⟩ => show win0_0.index t (1 : Fin 2) * 1024 + 1 * k.val = k.val; omega
  have hφ : ((cfg0.win 1).blk t).view.emb (ix2 (0 : Fin 1) k) = ix2 (0 : Fin 1) k := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  have hw : ((cfg0.win 2).blk t).view.emb (ix2 k q)
      = ix2 k (⟨win0_3.index t (1 : Fin 2) * 1024 + q.val, by omega⟩ : Fin 4096) := by
    funext a; apply Fin.ext
    match a with
    | ⟨0, _⟩ => show win0_2.index t (0 : Fin 2) * 1024 + 1 * k.val = k.val; omega
    | ⟨1, _⟩ => show win0_2.index t (1 : Fin 2) * 1024 + 1 * q.val = win0_3.index t (1 : Fin 2) * 1024 + q.val; omega
  show Ideal.cos (xarr m c (((cfg0.win 0).blk t).view.emb (ix2 p k)) * prow m c (((cfg0.win 1).blk t).view.emb (ix2 (0 : Fin 1) k)))
      * warr m c (((cfg0.win 2).blk t).view.emb (ix2 k q)) = _
  rw [hx, hφ, hw, prow_apply]

/-! ## The blocks tile the result -/

/-- An entry of the result is in point `t`'s block iff each coordinate is in the block's range on its axis. -/
theorem mem_block (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- Entry `(b, n)` lies in the block of the point at block row `b / 512` and block column `n / 1024`. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := index_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## The result array, and the run -/

/-- THE RESULT ARRAY after the run is the cosine-modulated product of the arguments as launched. -/
theorem final (c : Dev nD) :
    (dats m 0 c).arrAt 3 cfg0.N = cosDot (m ((c : Thread nD τ).loc main_arg0)) (m ((c : Thread nD τ).loc main_arg1))
      (phase (m ((c : Thread nD τ).loc main_arg2))) := by
  rw [← xarr_eq m c, ← warr_eq m c]
  exact (dats m 0 c).arrAt_eq_of_cover 3 _ (fun t _ => flushed_eq m c t) covered

/-- Every weakly fair execution ends with the result array at that function and the arguments unchanged. -/
theorem run : θ_run defs (onTc (τ := τ) (main (F := Ideal))) ⟨m, fun _ => 0, ρ⟩ fun r => ∀ c : Dev nD,
      r.2.mem ((c : Thread nD τ).loc main_v4) = cosDot (m ((c : Thread nD τ).loc main_arg0)) (m ((c : Thread nD τ).loc main_arg1))
        (phase (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.RunValue

end
-- ==== Proof.RefCosDot.lean ====
/-
  The reference on the extended reals. Its last stage, the product of the cosine table with the weights, read at an entry
  `(b, n)` is `∑ₖ cos (x (b, k) · φ k) · w (k, n)`, where `φ` is the stage that holds the row means of the phase table
  (the sum of a row's twelve entries divided by twelve): the two broadcasts only lay `φ` under every row of `x`, and the
  host's cosine and product are the extended reals' own.
-/
import proofs.«107179_j8555574854205_1_alg».proof.Proof.Gen.ReferenceIdeal.Read
import proofs.«107179_j8555574854205_1_alg».proof.Proof.CosDot

noncomputable section

open scoped BigOperators

namespace Cert.ReferenceIdeal.RefValue

open Cert.ReferenceIdeal Cert.ReferenceIdeal.Gen Cert.ReferenceIdeal.Read Idealize.ShloMosaic Idealize.ShloMosaic.ValueIdx
open Cert.CosDot

/-- The left operand of the product is read at the entry's row and the summation index … -/
theorem lidx_eq (b n : Fin 4096) (k : Fin 1024) : lidx_main_v7 (ix2 b n) k = ix2 b k :=
  funext fun a => Fin.ext (by match a with | ⟨0, _⟩ => rfl | ⟨1, _⟩ => rfl)
/-- … the right operand at the summation index and the entry's column. -/
theorem ridx_eq (b n : Fin 4096) (k : Fin 1024) : ridx_main_v7 (ix2 b n) k = ix2 k n :=
  funext fun a => Fin.ext (by match a with | ⟨0, _⟩ => rfl | ⟨1, _⟩ => rfl)
/-- Through the two broadcasts, entry `(b, k)` of the phase table laid under `x` is entry `k` of the phase vector. -/
theorem phase_idx (b : Fin 4096) (k : Fin 1024) : idx_main_v3 (idx_main_v4 (ix2 b k)) = ix1 k :=
  funext fun a => Fin.ext (by match a with | ⟨0, _⟩ => rfl)

/-- THE REFERENCE'S RESULT is the cosine-modulated product of `x`, the weights and the row means of the phase table. -/
theorem result_eq (x0 : (⟨S4096x1024, .f32⟩ : BufTy).Contents (Elt Ideal)) (x1 : (⟨S1024x4096, .f32⟩ : BufTy).Contents (Elt Ideal))
    (x2 : (⟨S1024x12, .f32⟩ : BufTy).Contents (Elt Ideal)) :
    val_main_v7 (F := Ideal) x0 x1 x2 = cosDot x0 x1 (val_main_v2 (F := Ideal) x2) := by
  funext i
  obtain ⟨b, n, rfl⟩ : ∃ (b : Fin 4096) (n : Fin 4096), i = ix2 b n := ⟨i 0, i 1, eq_ix2 i⟩
  rw [val_main_v7_apply, cosDot_ix2]
  refine Finset.sum_congr rfl fun k _ => ?_
  rw [lidx_eq, ridx_eq, val_main_v6_apply, val_main_v5_apply, val_main_v4_apply, val_main_v3_apply, phase_idx]
  rfl

end Cert.ReferenceIdeal.RefValue

end
-- ==== Proof.lean ====
/-
  The kernel and its reference compute one function on the extended reals: with `φ k` the mean of row `k` of the 1024×12
  phase table (its twelve entries summed from zero, divided by twelve),

      out (b, n) = ∑ₖ cos (x (b, k) · φ k) · w (k, n),      b, n < 4096, k < 1024.

  The kernel computes it block by block: 8 × 4 grid points, each multiplying a 512×1024 block of cosines into a 1024×1024
  block of weights with the whole summation axis resident, accumulating into zeros; its two narrowings to a 16-bit format
  are the identity on the extended reals. The reference computes it as one product of the whole cosine table with the
  whole weight matrix. Entry by entry both are the same finite sum, term for term: no rearrangement across the sum is
  needed, so the finiteness of the inputs is never used. Both programs form `φ` by the same three host operations.

  The three runs: the kernel's two frames are the generated ones; the reference's frame is its generated run with the
  result dropped; the idealization rewrote nothing, so there is nothing to preserve.
-/
import proofs.«107179_j8555574854205_1_alg».proof.Defs
import proofs.«107179_j8555574854205_1_alg».proof.Proof.Gen.Kernel
import proofs.«107179_j8555574854205_1_alg».proof.Proof.Gen.Kernel.Skeleton
import proofs.«107179_j8555574854205_1_alg».proof.Proof.Gen.Kernel.Launch
import proofs.«107179_j8555574854205_1_alg».proof.Proof.Gen.Kernel.Points
import proofs.«107179_j8555574854205_1_alg».proof.Proof.Gen.Kernel.Frame
import proofs.«107179_j8555574854205_1_alg».proof.Proof.Gen.KernelIdeal
import proofs.«107179_j8555574854205_1_alg».proof.Proof.Gen.KernelIdeal.Skeleton
import proofs.«107179_j8555574854205_1_alg».proof.Proof.Gen.KernelIdeal.Launch
import proofs.«107179_j8555574854205_1_alg».proof.Proof.Gen.KernelIdeal.Points
import proofs.«107179_j8555574854205_1_alg».proof.Proof.Gen.KernelIdeal.Frame
import proofs.«107179_j8555574854205_1_alg».proof.Proof.Gen.ReferenceIdeal
import proofs.«107179_j8555574854205_1_alg».proof.Proof.Gen.Pre_finite_inputs
import proofs.«107179_j8555574854205_1_alg».proof.Proof.Gen.KernelIdeal.Value
import proofs.«107179_j8555574854205_1_alg».proof.Proof.Gen.ReferenceIdeal.Run
import proofs.«107179_j8555574854205_1_alg».proof.Proof.Gen.ReferenceIdeal.Read
import proofs.«107179_j8555574854205_1_alg».proof.Proof.KernelValue
import proofs.«107179_j8555574854205_1_alg».proof.Proof.RefCosDot
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's stage of row means is the phase vector the kernel's region finds: the same sum from zero, the same
    division by twelve. -/
theorem phase_eq (x2 : (⟨Cert.ReferenceIdeal.S1024x12, .f32⟩ : BufTy).Contents (Elt Ideal)) :
    Cert.ReferenceIdeal.Read.val_main_v2 (F := Ideal) x2 = Cert.KernelIdeal.RunValue.phase x2 := rfl

/-- From memories that agree on `x`, the weights and the phase table, the kernel's result array and the reference's both
    end at `∑ₖ cos (x (b, k) · φ k) · w (k, n)`. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, phase_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
